-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64x128 : Shape := ⟨3, ![4096, 64, 128]⟩
abbrev S4096x128x128 : Shape := ⟨3, ![4096, 128, 128]⟩
abbrev S4096x128 : Shape := ⟨2, ![4096, 128]⟩
abbrev S_ : Shape := ⟨0, ![]⟩

class Facts : Prop where
  bcast_S_S4096x64x128 : S_.BroadcastsInDim S4096x64x128 (![] : Fin 0 → Fin S4096x64x128.rank)
  reducesTo_S4096x64x128_S_d0_1_2 : S4096x64x128.ReducesTo [0, 1, 2] S_
  h_S_ : 0 < S_.numel
  bcast_S_S4096x128x128 : S_.BroadcastsInDim S4096x128x128 (![] : Fin 0 → Fin S4096x128x128.rank)
  reducesTo_S4096x128x128_S_d0_1_2 : S4096x128x128.ReducesTo [0, 1, 2] S_
  bcast_S_S4096x128 : S_.BroadcastsInDim S4096x128 (![] : Fin 0 → Fin S4096x128.rank)
  reducesTo_S4096x128_S_d0_1 : S4096x128.ReducesTo [0, 1] S_

variable [Facts]

def fn {F : FTy → Type} [FloatOps F] (main_arg0 : FVec F S4096x64x128 .f32) (main_arg1 : FVec F S4096x128x128 .f32) (main_arg2 : FVec F S4096x128 .f32) : IVec S_ 1 :=
  let main_v0 : FVec F S4096x64x128 .f32 := Host.absf main_arg0
  let main_cst : FVec F S_ .f32 := constant S_ .f32 0x7F800000#32
  let main_v1 : FVec F S4096x64x128 .f32 := broadcastInDim S4096x64x128 ![] bcast_S_S4096x64x128 main_cst
  let main_v2 : IVec S4096x64x128 1 := cmpf .olt main_v0 main_v1
  let main_c : IVec S_ 1 := constantI S_ 1 1#1
  let main_v3 : IVec S_ 1 := (fun x v => Host.reduce IntOp.andi x v reducesTo_S4096x64x128_S_d0_1_2 h_S_) main_v2 main_c
  let main_v4 : FVec F S4096x128x128 .f32 := Host.absf main_arg1
  let main_cst_0 : FVec F S_ .f32 := constant S_ .f32 0x7F800000#32
  let main_v5 : FVec F S4096x128x128 .f32 := broadcastInDim S4096x128x128 ![] bcast_S_S4096x128x128 main_cst_0
  let main_v6 : IVec S4096x128x128 1 := cmpf .olt main_v4 main_v5
  let main_c_1 : IVec S_ 1 := constantI S_ 1 1#1
  let main_v7 : IVec S_ 1 := (fun x v => Host.reduce IntOp.andi x v reducesTo_S4096x128x128_S_d0_1_2 h_S_) main_v6 main_c_1
  let main_v8 : IVec S_ 1 := andi main_v3 main_v7
  let main_v9 : FVec F S4096x128 .f32 := Host.absf main_arg2
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  main_v13
-- ==== Kernel.lean ====
abbrev S4096x64x128 : Shape := ⟨3, ![4096, 64, 128]⟩
abbrev S4096x128x128 : Shape := ⟨3, ![4096, 128, 128]⟩
abbrev S4096x128 : Shape := ⟨2, ![4096, 128]⟩
abbrev S64x64x128 : Shape := ⟨3, ![64, 64, 128]⟩
abbrev S64x128x128 : Shape := ⟨3, ![64, 128, 128]⟩
abbrev S4096x1x128 : Shape := ⟨3, ![4096, 1, 128]⟩
abbrev S262144x128 : Shape := ⟨2, ![262144, 128]⟩

abbrev nBuf : Space → Nat
  | .hbm => 8
  | .vmem => 6
  | .smem => 0
  | _ => 0

abbrev bufTy : (tb : Table) → Fin (tcTables nBuf tb) → BufTy
  | .hbm, ⟨0, _⟩ => ⟨S4096x64x128, .f32⟩
  | .hbm, ⟨1, _⟩ => ⟨S4096x128x128, .f32⟩
  | .hbm, ⟨2, _⟩ => ⟨S4096x128, .f32⟩
  | .hbm, ⟨3, _⟩ => ⟨S4096x64x128, .f32⟩
  | .hbm, ⟨4, _⟩ => ⟨S4096x1x128, .f32⟩
  | .hbm, ⟨5, _⟩ => ⟨S4096x64x128, .f32⟩
  | .hbm, ⟨6, _⟩ => ⟨S4096x64x128, .f32⟩
  | .hbm, ⟨7, _⟩ => ⟨S262144x128, .f32⟩
  | .local _ .vmem, ⟨0, _⟩ => ⟨S64x64x128, .f32⟩
  | .local _ .vmem, ⟨1, _⟩ => ⟨S64x64x128, .f32⟩
  | .local _ .vmem, ⟨2, _⟩ => ⟨S64x128x128, .f32⟩
  | .local _ .vmem, ⟨3, _⟩ => ⟨S64x128x128, .f32⟩
  | .local _ .vmem, ⟨4, _⟩ => ⟨S64x64x128, .f32⟩
  | .local _ .vmem, ⟨5, _⟩ => ⟨S64x64x128, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S64x64x128_S64x64x128_0_0_0 : ∀ a, (![0, 0, 0] : Fin 3 → Nat) a + S64x64x128.size a ≤ S64x64x128.size a
  h_S64x64x128 : 0 < S64x64x128.numel
  bitsLt_bf16_f32 : FTy.bits .bf16 < FTy.bits .f32
  inb_S64x128x128_S64x128x128_0_0_0 : ∀ a, (![0, 0, 0] : Fin 3 → Nat) a + S64x128x128.size a ≤ S64x128x128.size a
  h_S64x128x128 : 0 < S64x128x128.numel
  bcast_S4096x128_S4096x1x128_0_2 : S4096x128.BroadcastsInDim S4096x1x128 (![0, 2] : Fin 2 → Fin S4096x1x128.rank)
  bcast_S4096x1x128_S4096x64x128_0_1_2 : S4096x1x128.BroadcastsInDim S4096x64x128 (![0, 1, 2] : Fin 3 → Fin S4096x64x128.rank)
  shapeCasts_S4096x64x128_S262144x128 : S4096x64x128.ShapeCasts S262144x128
  dot_S64x64x128_S64x128x128_S64x64x128_2_2_1_1_0_0_wf : DotDims.WF S64x64x128 S64x128x128 S64x64x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x128.size a ≤ S4096x64x128.size a
  hwx0_0 : ∀ i : grid0.Coords, EltTy.bits .f32 = 32 ∨ (Rect.block (s := S4096x64x128) S64x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S4096x128x128.size a
  hwx0_1 : ∀ i : grid0.Coords, EltTy.bits .f32 = 32 ∨ (Rect.block (s := S4096x128x128) S64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S4096x64x128.size a
  hwx0_2 : ∀ i : grid0.Coords, EltTy.bits .f32 = 32 ∨ (Rect.block (s := S4096x64x128) S64x64x128.size (cc0_transform_2 i) (hinb0_2 i)).WholeWords (EltTy.packing .f32)

variable [Facts₀]

def dot_S64x64x128_S64x128x128_S64x64x128_2_2_1_1_0_0 : DotDims S64x64x128 S64x128x128 S64x64x128 where
  lhsContracting := [2]
  rhsContracting := [2]
  lhsNonContracting := [1]
  rhsNonContracting := [1]
  lhsBatch := [0]
  rhsBatch := [0]
  wf := dot_S64x64x128_S64x128x128_S64x64x128_2_2_1_1_0_0_wf

abbrev win0_0 : Pipeline.Window sig grid0 :=
  Pipeline.Window.ofSpec (Memref.whole main_arg0) S64x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x64x128 : Shape := ⟨3, ![4096, 64, 128]⟩
abbrev S4096x128x128 : Shape := ⟨3, ![4096, 128, 128]⟩
abbrev S4096x128 : Shape := ⟨2, ![4096, 128]⟩
abbrev S4096x1x128 : Shape := ⟨3, ![4096, 1, 128]⟩
abbrev S262144x128 : Shape := ⟨2, ![262144, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S4096x128x128, .f32⟩
  | .hbm, ⟨2, _⟩ => ⟨S4096x128, .f32⟩
  | .hbm, ⟨3, _⟩ => ⟨S4096x64x128, .f32⟩
  | .hbm, ⟨4, _⟩ => ⟨S4096x1x128, .f32⟩
  | .hbm, ⟨5, _⟩ => ⟨S4096x64x128, .f32⟩
  | .hbm, ⟨6, _⟩ => ⟨S4096x64x128, .f32⟩
  | .hbm, ⟨7, _⟩ => ⟨S262144x128, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S4096x128_S4096x1x128_0_2 : S4096x128.BroadcastsInDim S4096x1x128 (![0, 2] : Fin 2 → Fin S4096x1x128.rank)
  bcast_S4096x1x128_S4096x64x128_0_1_2 : S4096x1x128.BroadcastsInDim S4096x64x128 (![0, 1, 2] : Fin 3 → Fin S4096x64x128.rank)
  shapeCasts_S4096x64x128_S262144x128 : S4096x64x128.ShapeCasts S262144x128
  dot_S4096x64x128_S4096x128x128_S4096x64x128_2_2_1_1_0_0_wf : DotDims.WF S4096x64x128 S4096x128x128 S4096x64x128 [2] [2] [1] [1] [0] [0]

variable [Facts₀]

def dot_S4096x64x128_S4096x128x128_S4096x64x128_2_2_1_1_0_0 : DotDims S4096x64x128 S4096x128x128 S4096x64x128 where
  lhsContracting := [2]
  rhsContracting := [2]
  lhsNonContracting := [1]
  rhsNonContracting := [1]
  lhsBatch := [0]
  rhsBatch := [0]
  wf := dot_S4096x64x128_S4096x128x128_S4096x64x128_2_2_1_1_0_0_wf

class Facts : Prop extends Facts₀ where

variable [Facts]
-- ==== Proof.SubsystemProducts.lean ====
/-
  The function both programs compute before the bias is added. There are 4096 independent subsystems; subsystem `s`
  holds a 64 × 128 input `x_s` and a 128 × 128 weight matrix `W_s` stored output-row by output-row (row `o` of `W_s` is
  the weight vector of output feature `o`). Its linear map sends input row `b` to the vector whose entry `o` is the
  inner product of row `b` of `x_s` with row `o` of `W_s`:

      rowProducts X W (s, b, o) = Σ_{k < 128} X (s, b, k) · W (s, o, k).

  Over the extended reals this is a finite sum of products and nothing else: no rounding, no order of
  summation, no tiling of the subsystem axis is left in it, and no finiteness of the entries is needed to
  state it or to compare two programs that both compute it.
-/
import Idealize.ShloMosaic.PureOps.Ideal
import Idealize.ShloMosaic.Lib.ValueIdx

noncomputable section

open scoped BigOperators

namespace Cert.SubsystemProducts

open Idealize.ShloMosaic Idealize.ShloMosaic.ValueIdx

/-- The stacked inputs: subsystem × row × input feature. -/
abbrev Inputs : Shape := ⟨3, ![4096, 64, 128]⟩
/-- The stacked weights: subsystem × output feature × input feature. -/
abbrev Weights : Shape := ⟨3, ![4096, 128, 128]⟩

/-- Entry `(s, b, o)`: the inner product, over the 128 input features, of row `b` of subsystem `s`'s input with
    row `o` of its weight matrix. -/
def rowProducts (X : FVec Ideal Inputs .f32) (W : FVec Ideal Weights .f32) : FVec Ideal Inputs .f32 :=
  fun i => ∑ k : Fin 128, X (ix3 (i 0) (i 1) k) * W (ix3 (i 0) (i 2) k)

/-- The same entry with the index given by its three coordinates. -/
theorem rowProducts_ix3 (X : FVec Ideal Inputs .f32) (W : FVec Ideal Weights .f32) (s : Fin 4096) (b : Fin 64) (o : Fin 128) :
    rowProducts X W (ix3 s b o) = ∑ k : Fin 128, X (ix3 s b k) * W (ix3 s o k) := rfl

end Cert.SubsystemProducts

end
-- ==== Proof.ReferenceProducts.lean ====
/-
  The reference's first operation is `rowProducts`. jnp's einsum 'sbi,soi->sbo' lowers to one `dot_general` that
  keeps the subsystem axis as a batch axis on both operands and contracts the last axis of each (the 128 input
  features). Read at an output index `(s, b, o)` over the extended reals it is the sum over the contracted
  coordinate `k` of the left operand at `(s, b, k)` times the right operand at `(s, o, k)` — the generated reading of
  the operation says so with its own index functions, and those are the coordinate triples above, axis by axis.
-/
import proofs.«431191_j36953898615445_3_alg».proof.Proof.Gen.ReferenceIdeal.Read
import proofs.«431191_j36953898615445_3_alg».proof.Proof.SubsystemProducts

noncomputable section

open scoped BigOperators

namespace Cert.ReferenceProducts

open Cert.ReferenceIdeal Cert.ReferenceIdeal.Gen Cert.ReferenceIdeal.Read
open Idealize.ShloMosaic Idealize.ShloMosaic.ValueIdx Cert.SubsystemProducts

/-- The left operand's index at output index `i` and contracted coordinate `k`: subsystem and row from `i`, feature `k`. -/
theorem left_index (i : S4096x64x128.Idx) (k : Fin 128) : lidx_main_v0 i k = ix3 (i 0) (i 1) k :=
  funext fun a => Fin.ext (by match a with | ⟨0, _⟩ => rfl | ⟨1, _⟩ => rfl | ⟨2, _⟩ => rfl)

/-- The right operand's: subsystem and OUTPUT feature from `i`, input feature `k`. -/
theorem right_index (i : S4096x64x128.Idx) (k : Fin 128) : ridx_main_v0 i k = ix3 (i 0) (i 2) k :=
  funext fun a => Fin.ext (by match a with | ⟨0, _⟩ => rfl | ⟨1, _⟩ => rfl | ⟨2, _⟩ => rfl)

/-- The batched `dot_general` of the stacked inputs and weights is `rowProducts` of them, entry by entry. -/
theorem dotGeneral_eq_rowProducts (X : FVec Ideal S4096x64x128 .f32) (W : FVec Ideal S4096x128x128 .f32) :
    Host.dotGeneral (F := Ideal) dot_S4096x64x128_S4096x128x128_S4096x64x128_2_2_1_1_0_0 none X W = rowProducts X W := by
  funext i
  refine (val_main_v0_apply X W i).trans ?_
  unfold rowProducts
  refine Finset.sum_congr rfl fun k _ => ?_
  rw [left_index, right_index]
  rfl

end Cert.ReferenceProducts

end
-- ==== Proof.BlockProducts.lean ====
/-
  What the kernel body computes from the two blocks it loads. At one grid point the body holds 64 consecutive
  subsystems: a 64 × 64 × 128 block of inputs and a 64 × 128 × 128 block of weights. It narrows both to bf16 (over
  the extended reals a change of format is the identity), multiplies them on the matrix unit with the
  subsystem axis as a batch axis and the last axis of each contracted, into an accumulator of zeros, and stores
  the result. So the stored block at `(s, b, o)` — `s` now the subsystem's place INSIDE the block — is

      Σ_{k < 128} x (s, b, k) · w (s, o, k),

  the same inner product `rowProducts` takes, of the block's own rows. The matrix unit's contraction index is a
  one-axis index; the sum is re-indexed through its one coordinate, and the operand indices are read off the
  dimension numbers axis by axis: batch axis from the output's axis 0, the kept axis from the output's axis 1
  (left) or 2 (right), the contracted axis from the coordinate.
-/
import proofs.«431191_j36953898615445_3_alg».proof.Proof.Gen.KernelIdeal.Skeleton
import Idealize.ShloMosaic.Lib.ValueIdx
import Idealize.ShloMosaic.PureOps.Ideal.Laws

noncomputable section

open scoped BigOperators

namespace Cert.BlockProducts

open Cert.KernelIdeal Cert.KernelIdeal.Gen
open Idealize.ShloMosaic Idealize.ShloMosaic.ValueIdx

/-! ## The operand indices of the block product, axis by axis -/

theorem left_subsystem (i : S64x64x128.Idx) (q : dot_S64x64x128_S64x128x128_S64x64x128_2_2_1_1_0_0.contr.Idx) :
    (dot_S64x64x128_S64x128x128_S64x64x128_2_2_1_1_0_0.lhsIdx i q 0).val = (i 0).val := by
  unfold DotDims.lhsIdx
  rw [dif_pos (show (0 : Fin S64x64x128.rank) ∈ dot_S64x64x128_S64x128x128_S64x64x128_2_2_1_1_0_0.lhsBatch by decide)]
  rfl
theorem left_row (i : S64x64x128.Idx) (q : dot_S64x64x128_S64x128x128_S64x64x128_2_2_1_1_0_0.contr.Idx) :
    (dot_S64x64x128_S64x128x128_S64x64x128_2_2_1_1_0_0.lhsIdx i q 1).val = (i 1).val := by
  unfold DotDims.lhsIdx
  rw [dif_neg (show ¬(1 : Fin S64x64x128.rank) ∈ dot_S64x64x128_S64x128x128_S64x64x128_2_2_1_1_0_0.lhsBatch by decide), dif_pos (show (1 : Fin S64x64x128.rank) ∈ dot_S64x64x128_S64x128x128_S64x64x128_2_2_1_1_0_0.lhsNonContracting by decide)]
  rfl
theorem left_feature (i : S64x64x128.Idx) (q : dot_S64x64x128_S64x128x128_S64x64x128_2_2_1_1_0_0.contr.Idx) :
    (dot_S64x64x128_S64x128x128_S64x64x128_2_2_1_1_0_0.lhsIdx i q 2).val = (q ⟨0, by decide⟩).val :=
  dot_S64x64x128_S64x128x128_S64x64x128_2_2_1_1_0_0.lhsIdx_val_of_single rfl i q
theorem right_subsystem (i : S64x64x128.Idx) (q : dot_S64x64x128_S64x128x128_S64x64x128_2_2_1_1_0_0.contr.Idx) :
    (dot_S64x64x128_S64x128x128_S64x64x128_2_2_1_1_0_0.rhsIdx i q 0).val = (i 0).val := by
  unfold DotDims.rhsIdx
  rw [dif_pos (show (0 : Fin S64x128x128.rank) ∈ dot_S64x64x128_S64x128x128_S64x64x128_2_2_1_1_0_0.rhsBatch by decide)]
  rfl
theorem right_output (i : S64x64x128.Idx) (q : dot_S64x64x128_S64x128x128_S64x64x128_2_2_1_1_0_0.contr.Idx) :
    (dot_S64x64x128_S64x128x128_S64x64x128_2_2_1_1_0_0.rhsIdx i q 1).val = (i 2).val := by
  unfold DotDims.rhsIdx
  rw [dif_neg (show ¬(1 : Fin S64x128x128.rank) ∈ dot_S64x64x128_S64x128x128_S64x64x128_2_2_1_1_0_0.rhsBatch by decide), dif_pos (show (1 : Fin S64x128x128.rank) ∈ dot_S64x64x128_S64x128x128_S64x64x128_2_2_1_1_0_0.rhsNonContracting by decide)]
  rfl
theorem right_feature (i : S64x64x128.Idx) (q : dot_S64x64x128_S64x128x128_S64x64x128_2_2_1_1_0_0.contr.Idx) :
    (dot_S64x64x128_S64x128x128_S64x64x128_2_2_1_1_0_0.rhsIdx i q 2).val = (q ⟨0, by decide⟩).val :=
  dot_S64x64x128_S64x128x128_S64x64x128_2_2_1_1_0_0.rhsIdx_val_of_single rfl i q

/-! ## The stored block at an index -/

/-- The body's one stored value, read at `(s, b, o)` of the block: the inner product of row `b` of the block's
    subsystem `s` with row `o` of that subsystem's weights. -/
theorem stored_apply (x : FVec Ideal S64x64x128 .f32) (w : FVec Ideal S64x128x128 .f32) (i : S64x64x128.Idx) :
    k0_pay1 (F := Ideal) x w i = ∑ k : Fin 128, x (ix3 (i 0) (i 1) k) * w (ix3 (i 0) (i 2) k) := by
  unfold k0_pay1
  simp only [matmul]
  rw [Ideal.matmul_constant_zero_apply, ← Equiv.sum_comp (contrEquiv1 dot_S64x64x128_S64x128x128_S64x64x128_2_2_1_1_0_0 128 rfl rfl).symm]
  refine Finset.sum_congr rfl fun k _ => ?_
  have hk := contrEquiv1_symm_val dot_S64x64x128_S64x128x128_S64x64x128_2_2_1_1_0_0 128 rfl rfl k
  have el : dot_S64x64x128_S64x128x128_S64x64x128_2_2_1_1_0_0.lhsIdx i ((contrEquiv1 dot_S64x64x128_S64x128x128_S64x64x128_2_2_1_1_0_0 128 rfl rfl).symm k) = ix3 (i 0) (i 1) k := funext fun a => Fin.ext (by
    match a with
    | ⟨0, _⟩ => exact left_subsystem _ _
    | ⟨1, _⟩ => exact left_row _ _
    | ⟨2, _⟩ => exact (left_feature _ _).trans hk)
  have er : dot_S64x64x128_S64x128x128_S64x64x128_2_2_1_1_0_0.rhsIdx i ((contrEquiv1 dot_S64x64x128_S64x128x128_S64x64x128_2_2_1_1_0_0 128 rfl rfl).symm k) = ix3 (i 0) (i 2) k := funext fun a => Fin.ext (by
    match a with
    | ⟨0, _⟩ => exact right_subsystem _ _
    | ⟨1, _⟩ => exact right_output _ _
    | ⟨2, _⟩ => exact (right_feature _ _).trans hk)
  rw [truncf_apply, truncf_apply, el, er]
  rfl

end Cert.BlockProducts

end
-- ==== Proof.KernelArray.lean ====
/-
  From blocks to the whole array. The grid has 64 points; at point `t` every window — inputs, weights, output —
  sits at block `(t, 0, 0)`, that is, on subsystems `64·t … 64·t + 63` and on all of the other two axes. An entry
  `(s, b, k)` of a block is therefore entry `(64·t + s, b, k)` of its array, and by the block lemma what point `t`
  writes back at `(s, b, o)` is the inner product of row `b` of subsystem `64·t + s` with row `o` of that subsystem's
  weights: block `t` of `rowProducts` of the whole arrays. Every subsystem `σ < 4096` lies in exactly the block of
  point `σ / 64`, so the written blocks cover the output array, and it ends holding `rowProducts` of the arguments.
-/
import proofs.«431191_j36953898615445_3_alg».proof.Proof.Gen.KernelIdeal.Frame
import proofs.«431191_j36953898615445_3_alg».proof.Proof.BlockProducts
import proofs.«431191_j36953898615445_3_alg».proof.Proof.SubsystemProducts
import Idealize.ShloMosaic.Lib.Pipeline.Value

set_option maxRecDepth 16384

noncomputable section

open scoped BigOperators

namespace Cert.KernelArray

open Cert.KernelIdeal Cert.KernelIdeal.Gen
open Idealize.ShloMosaic Idealize.ShloMosaic.TcCoe Idealize.ShloMosaic.ValueIdx Idealize.SL.Sem
open Cert.SubsystemProducts Cert.BlockProducts

variable (m : (ℓ : Loc nD τ sig) → Buf (Elt Ideal) ℓ) (ρ : Dev nD → PrngReg)

/-- The body reads and writes each staging buffer from its origin. -/
theorem origin : (![0, 0, 0] : Fin 3 → Nat) = fun _ => 0 := funext fun a => by fin_cases a <;> rfl

/-- At point `t` each of the three windows is at block `(t, 0, 0)`. -/
theorem block_index : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- Every block of 64 subsystems is some point's. -/
theorem block_onto : ∀ q : Fin 64, ∃ t : Fin cfg0.N, win0_2.index t (0 : Fin 3) = q.val :=
  (by decide +kernel : ∀ q : Fin 64, ∃ t : Fin grid0.N, win0_2.index t (0 : Fin 3) = q.val)

/-- The inputs' block at point `t`, read at `(s, b, k)`, is the array at `(64·t + s, b, k)`: the entry the output's block
    puts at subsystem `s`. -/
theorem inputs_block (c : Dev nD) (t : Fin cfg0.N) (j : S64x64x128.Idx) (k : Fin 128) :
    iblk m c 0 t (ix3 (j 0) (j 1) k)
      = V m c main_arg0 (ix3 ((((cfg0.win 2).blk t).view.emb j) 0) ((((cfg0.win 2).blk t).view.emb j) 1) k) := by
  obtain ⟨a0, a1, a2, -, -, -, o0, o1, o2⟩ := block_index t
  show V m c main_arg0 (((cfg0.win 0).blk t).view.emb (ix3 (j 0) (j 1) k)) = _
  refine congrArg (V m c main_arg0) ?_
  funext a; apply Fin.ext
  match a with
  | ⟨0, _⟩ => show win0_0.index t (0 : Fin 3) * 64 + 1 * (j 0).val = win0_2.index t (0 : Fin 3) * 64 + 1 * (j 0).val; omega
  | ⟨1, _⟩ => show win0_0.index t (1 : Fin 3) * 64 + 1 * (j 1).val = win0_2.index t (1 : Fin 3) * 64 + 1 * (j 1).val; omega
  | ⟨2, _⟩ => show win0_0.index t (2 : Fin 3) * 128 + 1 * k.val = k.val; omega

/-- The weights' block at point `t`, read at `(s, o, k)`, is the array at `(64·t + s, o, k)`. -/
theorem weights_block (c : Dev nD) (t : Fin cfg0.N) (j : S64x64x128.Idx) (k : Fin 128) :
    iblk m c 1 t (ix3 (j 0) (j 2) k)
      = V m c main_arg1 (ix3 ((((cfg0.win 2).blk t).view.emb j) 0) ((((cfg0.win 2).blk t).view.emb j) 2) k) := by
  obtain ⟨-, -, -, a0, a1, a2, o0, o1, o2⟩ := block_index t
  show V m c main_arg1 (((cfg0.win 1).blk t).view.emb (ix3 (j 0) (j 2) k)) = _
  refine congrArg (V m c main_arg1) ?_
  funext a; apply Fin.ext
  match a with
  | ⟨0, _⟩ => show win0_1.index t (0 : Fin 3) * 64 + 1 * (j 0).val = win0_2.index t (0 : Fin 3) * 64 + 1 * (j 0).val; omega
  | ⟨1, _⟩ => show win0_1.index t (1 : Fin 3) * 128 + 1 * (j 2).val = win0_2.index t (2 : Fin 3) * 128 + 1 * (j 2).val; omega
  | ⟨2, _⟩ => show win0_1.index t (2 : Fin 3) * 128 + 1 * k.val = k.val; omega

/-- WHAT POINT `t` WRITES BACK is block `t` of `rowProducts` of the two argument arrays. -/
theorem flushed_eq (c : Dev nD) (t : Fin cfg0.N) :
    (dats m 0 c).flushed 2 t
      = ((cfg0.win 2).blk t).view.read (Elt Ideal) (rowProducts (V m c main_arg0) (V m c main_arg1)) := by
  show (cfg0.win 2).cut (grid0.coords t) ((dats m 0 c).after 2 t) = _
  rw [after0_2]
  unfold out0_2
  rw [View.canon_unit_zero origin]
  simp only [View.ld_unit_zero (S := S64x64x128) origin, View.ld_unit_zero (S := S64x128x128) origin]
  funext j
  show k0_pay1 (F := Ideal) (iblk m c 0 t) (iblk m c 1 t) j
    = rowProducts (V m c main_arg0) (V m c main_arg1) (((cfg0.win 2).blk t).view.emb j)
  refine (stored_apply (iblk m c 0 t) (iblk m c 1 t) j).trans ?_
  unfold rowProducts
  refine Finset.sum_congr rfl fun k _ => ?_
  rw [inputs_block m c t j k, weights_block m c t j k]

/-- An index of the output array is in point `t`'s block iff each coordinate is in the block's range on its axis. -/
theorem mem_block (t : Fin cfg0.N) (i : S4096x64x128.Idx) :
    i ∈ ((cfg0.win 2).blk t).view.set
      ↔ ∀ a : Fin 3, win0_2.index t a * S64x64x128.size a ≤ (i a).val ∧ (i a).val < win0_2.index t a * S64x64x128.size a + S64x64x128.size a := by
  show i ∈ ((View.whole main_v0).slice (win0_2.rect t)).set ↔ _
  rw [View.set_slice_whole, Rect.mem_set_unit]
  exact Iff.rfl

/-- Every entry of the output array is written back by some point: subsystem `σ` by point `σ / 64`. -/
theorem covered (i : S4096x64x128.Idx) :
    ∃ t : Fin cfg0.N, (cfg0.win 2).flush t = true ∧ i ∈ ((cfg0.win 2).blk t).view.set := by
  have hi0 : (i 0).val < 4096 := (i 0).isLt
  have hi1 : (i 1).val < 64 := (i 1).isLt
  have hi2 : (i 2).val < 128 := (i 2).isLt
  obtain ⟨t, ht⟩ := block_onto ⟨(i 0).val / 64, by omega⟩
  have q0 : win0_2.index t (0 : Fin 3) = (i 0).val / 64 := ht
  obtain ⟨-, -, -, -, -, -, o0, o1, o2⟩ := block_index t
  refine ⟨t, flush0_2 t, ?_⟩
  rw [mem_block]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 64 ≤ (i 1).val ∧ (i 1).val < win0_2.index t (1 : Fin 3) * 64 + 64; omega
  | ⟨2, _⟩ => show win0_2.index t (2 : Fin 3) * 128 ≤ (i 2).val ∧ (i 2).val < win0_2.index t (2 : Fin 3) * 128 + 128; omega

/-- THE OUTPUT ARRAY after the region: `rowProducts` of the inputs and weights as launched. -/
theorem array_eq (c : Dev nD) :
    (dats m 0 c).arrAt 2 cfg0.N
      = rowProducts (m ((c : Thread nD τ).loc main_arg0)) (m ((c : Thread nD τ).loc main_arg1)) :=
  (dats m 0 c).arrAt_eq_of_cover 2 (rowProducts (V m c main_arg0) (V m c main_arg1))
    (fun t _ => flushed_eq m c t) covered

end Cert.KernelArray

end
-- ==== Proof.KernelRun.lean ====
/-
  The kernel program's result. After the region the program adds the bias and flattens: the bias `b` of shape
  4096 × 128 is given a unit row axis, repeated along the 64 rows, added to the region's output, and the sum of
  shape 4096 × 64 × 128 is re-laid as 262144 × 128 (the subsystems' outputs stacked). None of these lines writes the
  region's output array or an argument, so they see the output array as the region left it — `rowProducts` of the
  inputs and weights — and the bias as launched. The result is that tail applied to `rowProducts x W` and `b`;
  the tail itself is never opened, because the reference ends with the same four lines.
-/
import proofs.«431191_j36953898615445_3_alg».proof.Proof.KernelArray
import Idealize.ShloMosaic.Lib.StableHlo.Run

noncomputable section

namespace Cert.KernelRun

open Cert.KernelIdeal Cert.KernelIdeal.Gen
open Idealize.ShloMosaic Idealize.ShloMosaic.TcCoe Idealize.SL.Sem Idealize.ShloMosaic.StableHlo
open Cert.SubsystemProducts Cert.KernelArray

variable (m : (ℓ : Loc nD τ sig) → Buf (Elt Ideal) ℓ) (ρ : Dev nD → PrngReg)

/-- The lines shared by both programs after the products: add the bias to every row of every subsystem and stack the
    subsystems' outputs. -/
def biasAndStack (y : FVec Ideal S4096x64x128 .f32) (b : FVec Ideal S4096x128 .f32) : FVec Ideal S262144x128 .f32 :=
  shapeCast S262144x128 (addf (F := Ideal) (φ := .f32) y
      (broadcastInDim S4096x64x128 ![0, 1, 2] bcast_S4096x1x128_S4096x64x128_0_1_2
        (broadcastInDim S4096x1x128 ![0, 2] bcast_S4096x128_S4096x1x128_0_2 b)))
    shapeCasts_S4096x64x128_S262144x128

/-- The result buffer after the lines that follow the region: the shared tail of `rowProducts` of the inputs and
    weights and of the bias, all three as launched. -/
theorem result_eq (c : Dev nD) :
    Pipeline.afterTail₀ cfgs (dats m) 0 (V0 m) [hostOps1] c main_v4
      = biasAndStack (rowProducts (m ((c : Thread nD τ).loc main_arg0)) (m ((c : Thread nD τ).loc main_arg1)))
          (m ((c : Thread nD τ).loc main_arg2)) := by
  have eOut : Pipeline.withArrays (cfgs 0).spec c (V0 m c) (fun w => (dats m 0 c).arrAt w (cfgs 0).N) (Proc.devRef .tc main_v0)
      = rowProducts (m ((c : Thread nD τ).loc main_arg0)) (m ((c : Thread nD τ).loc main_arg1)) :=
    (Pipeline.withArrays_arr spec0 launch0.win.arr_inj c (V0 m c) (fun w => (dats m 0 c).arrAt w cfg0.N) 2).trans (array_eq m c)
  have eBias : Pipeline.withArrays (cfgs 0).spec c (V0 m c) (fun w => (dats m 0 c).arrAt w (cfgs 0).N) (Proc.devRef .tc main_arg2)
      = m ((c : Thread nD τ).loc main_arg2) :=
    (Pipeline.withArrays_of_ne spec0 c (V0 m c) (fun w => (dats m 0 c).arrAt w cfg0.N) main_arg2
      (by exact (by decide : ∀ w, Pipeline.arrRef spec0 w ≠ main_arg2))).trans (V_main_arg2 m c)
  unfold Pipeline.afterTail₀ biasAndStack
  show StableHlo.after hostOps1 _ (Proc.devRef .tc main_v4) = _
  after_results
  rw [eOut, eBias]
  rfl

/-- The kernel program's run at the ideal instance: it terminates without a fault, its result is the shared tail of
    `rowProducts` of the launched inputs and weights and of the launched bias, and its three arguments end unchanged. -/
theorem run : θ_run defs (onTc (τ := τ) (main (F := Ideal))) ⟨m, fun _ => 0, ρ⟩ fun r => ∀ c : Dev nD,
      r.2.mem ((c.tc : Thread nD τ).loc main_v4)
        = biasAndStack (rowProducts (m ((c : Thread nD τ).loc main_arg0)) (m ((c : Thread nD τ).loc main_arg1)))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelRun

end
-- ==== Proof.lean ====
/-
  4096 independent linear layers, y_s = x_s · W_sᵀ + b_s, stacked along the rows.

  THE KERNEL walks the subsystem axis in 64 blocks of 64 subsystems. At each block it loads the 64 × 64 × 128 inputs
  and the 64 × 128 × 128 weights, narrows both to bf16, forms on the matrix unit the batched product that contracts
  the 128 input features into an accumulator of zeros, and writes the 64 × 64 × 128 block back; after the 64 blocks
  it adds the bias (one 128-vector per subsystem, repeated over that subsystem's 64 rows) and re-lays the
  4096 × 64 × 128 result as 262144 × 128. THE REFERENCE takes one batched product over all 4096 subsystems at once
  and then adds the bias and re-lays in the same way.

  Over the extended reals a change of float format is the identity and a product into zeros is the plain sum of
  products, so the block the kernel writes at subsystems 64·t … 64·t + 63 is, entry by entry,

      Σ_{k < 128} x (64·t + s, b, k) · W (64·t + s, o, k):

  block t of ONE function of the whole arrays, `rowProducts x W`, which is also what the reference's batched product
  is, entry by entry. The 64 blocks tile the subsystem axis, so the kernel's array ends at `rowProducts x W`. Both
  programs then apply the same bias-and-stack lines to it. The two sides are the same finite sums of the same
  products: no law of arithmetic is used, hence no finiteness of the inputs either; the precondition is never opened.

  The kernel's frame (it terminates, faults nowhere, leaves its arguments alone) is the generated one at both
  instances; the reference's is its generated run with the result forgotten. The idealization rewrote nothing, so
  that it is sanctioned holds trivially.
-/
import proofs.«431191_j36953898615445_3_alg».proof.Defs
import proofs.«431191_j36953898615445_3_alg».proof.Proof.Gen.Kernel
import proofs.«431191_j36953898615445_3_alg».proof.Proof.Gen.Kernel.Skeleton
import proofs.«431191_j36953898615445_3_alg».proof.Proof.Gen.Kernel.Launch
import proofs.«431191_j36953898615445_3_alg».proof.Proof.Gen.Kernel.Points
import proofs.«431191_j36953898615445_3_alg».proof.Proof.Gen.Kernel.Frame
import proofs.«431191_j36953898615445_3_alg».proof.Proof.Gen.KernelIdeal
import proofs.«431191_j36953898615445_3_alg».proof.Proof.Gen.KernelIdeal.Skeleton
import proofs.«431191_j36953898615445_3_alg».proof.Proof.Gen.KernelIdeal.Launch
import proofs.«431191_j36953898615445_3_alg».proof.Proof.Gen.KernelIdeal.Points
import proofs.«431191_j36953898615445_3_alg».proof.Proof.Gen.KernelIdeal.Frame
import proofs.«431191_j36953898615445_3_alg».proof.Proof.Gen.ReferenceIdeal
import proofs.«431191_j36953898615445_3_alg».proof.Proof.Gen.Pre_finite_inputs
import proofs.«431191_j36953898615445_3_alg».proof.Proof.Gen.ReferenceIdeal.Run
import proofs.«431191_j36953898615445_3_alg».proof.Proof.Gen.ReferenceIdeal.Read
import proofs.«431191_j36953898615445_3_alg».proof.Proof.SubsystemProducts
import proofs.«431191_j36953898615445_3_alg».proof.Proof.ReferenceProducts
import proofs.«431191_j36953898615445_3_alg».proof.Proof.BlockProducts
import proofs.«431191_j36953898615445_3_alg».proof.Proof.KernelArray
import proofs.«431191_j36953898615445_3_alg».proof.Proof.KernelRun
import Idealize.ShloMosaic.Adequacy
import Idealize.ShloMosaic.Init

noncomputable section

namespace Cert.Proof

open Idealize.ShloMosaic Idealize.ShloMosaic.TcCoe Idealize.SL.Sem

/-- The kernel as printed terminates without a fault and leaves its arguments unchanged. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is five host operations in a row: its run, with what it computed forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From arguments that agree, the kernel's array of block products and the reference's one batched product are the same
    function `rowProducts` of the inputs and weights, and both programs finish with the same bias-and-stack lines. -/
theorem algebraic : Cert.algebraic_KernelIdeal_ReferenceIdeal := by
  intro m ρ m' ρ' _ hagree
  refine ⟨_, Cert.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2, Cert.ReferenceProducts.dotGeneral_eq_rowProducts]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
